-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S512x256 : Shape := ⟨2, ![512, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S512x256 .f32) (main_arg5 : FVec F S256 .f32) (main_arg6 : FVec F S512x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_v33

def fn {F : FTy → Type} [FloatOps F] (main_arg0 : FVec F S16384x256 .f32) (main_arg1 : FVec F S16384x256 .f32) (main_arg2 : FVec F S512x256 .f32) (main_arg3 : FVec F S256 .f32) (main_arg4 : FVec F S512x256 .f32) (main_arg5 : FVec F S256 .f32) (main_arg6 : FVec F S512x256 .f32) (main_arg7 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S16384x256 : Shape := ⟨2, ![16384, 256]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S2048x256 : Shape := ⟨2, ![2048, 256]⟩

abbrev nBuf : Space → Nat
  | .hbm => 24
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .bf16⟩
  | .hbm, ⟨15, _⟩ => ⟨S256x256, .bf16⟩
  | .hbm, ⟨16, _⟩ => ⟨S256x256, .bf16⟩
  | .hbm, ⟨17, _⟩ => ⟨S256x256, .bf16⟩
  | .hbm, ⟨18, _⟩ => ⟨S256x256, .bf16⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2048x256, .f32⟩
  | .local _ .vmem, ⟨14, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S512x256_S256x256_0_0 : S512x256.Slices ![0, 0] S256x256
  slices_S512x256_S256x256_256_0 : S512x256.Slices ![256, 0] S256x256
  bitsLt_bf16_f32 : FTy.bits .bf16 < FTy.bits .f32
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S16384x256.size a
  hwx0_11 : ∀ i : grid0.Coords, EltTy.bits .f32 = 32 ∨ (Rect.block (s := S16384x256) S2048x256.size (cc0_transform_11 i) (hinb0_11 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S2048x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x256 : Shape := ⟨2, ![16384, 256]⟩
abbrev S512x256 : Shape := ⟨2, ![512, 256]⟩
abbrev S256 : Shape := ⟨1, ![256]⟩
abbrev S16384x512 : Shape := ⟨2, ![16384, 512]⟩
abbrev S1x256 : Shape := ⟨2, ![1, 256]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S16384x512, .f32⟩
  | .hbm, ⟨9, _⟩ => ⟨S16384x256, .f32⟩
  | .hbm, ⟨10, _⟩ => ⟨S1x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S_, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S1x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x512, .f32⟩
  | .hbm, ⟨35, _⟩ => ⟨S16384x256, .f32⟩
  | .hbm, ⟨36, _⟩ => ⟨S1x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S16384x256_S16384x256_S16384x512_d1 : Shape.Concatenates [S16384x256, S16384x256] S16384x512 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  dot_S16384x512_S512x256_S16384x256_1_0_0_1_n_n_wf : DotDims.WF S16384x512 S512x256 S16384x256 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.GruSpec.lean ====
/-
  A gated recurrent cell on one row, at the ideal values.

  For a hidden row `h` and an input row `x` of 256 entries each, three weight matrices of 512 rows by 256
  columns and three biases, the cell computes
      z = σ(a_z),   r = σ(a_r),   s = tanh(a_s),   h' = (1 − z) ⊙ h + z ⊙ s,
  where a gate's pre-activation at column `c` is the row `[u, v]` of 512 entries against column `c` of the
  weight matrix, plus the bias:
      a(c) = Σ_{k<256} u_k · W[k, c] + Σ_{k<256} v_k · W[256 + k, c] + b_c,
  with `(u, v) = (h, x)` for `z` and `r`, and `(u, v) = (r ⊙ h, x)` for `s`.

  The one law proved here (`sum_cat2`) is that a sum over the 512 positions of two rows laid end to end is the
  sum over the first row's positions plus the sum over the second's.  It uses only that addition is commutative
  and associative, so it holds on the extended reals whatever the entries are: no entry need be finite.

  The rest reads a gate's pre-activation at a row out of the two spellings of it: one `dot_general` of the
  concatenated rows against the whole weight matrix, the bias broadcast in two steps; and two matrix products
  into zero accumulators, of the hidden and the input rows against the upper and the lower half of the weight
  matrix, the bias kept as one row and broadcast down the rows.
-/
import proofs.«136330_j83760452207457_1_alg».proof.Proof.LibRowOps

noncomputable section

open scoped BigOperators

namespace Gru

open Idealize.ShloMosaic Idealize.ShloMosaic.ValueIdx RowOps

/-! ## Two rows laid end to end, summed against a column -/

/-- A sum over the positions of two rows of 256 laid end to end is the first row's sum plus the second's. -/
theorem sum_cat2 (u v : Fin 256 → EReal) (g : Fin 512 → EReal) :
    (∑ j : Fin 512, cat2 512 u v j * g j)
      = (∑ k : Fin 256, u k * g ⟨k.val, Nat.lt_of_lt_of_le k.isLt (by decide)⟩)
        + ∑ k : Fin 256, v k * g ⟨256 + k.val, Nat.add_lt_add_left k.isLt 256⟩ := by
  have e := Fin.sum_univ_add (M := EReal) (a := 256) (b := 256) (fun j : Fin (256 + 256) => cat2 512 u v j * g j)
  refine e.trans (congrArg₂ (· + ·) (Finset.sum_congr rfl fun k _ => ?_) (Finset.sum_congr rfl fun k _ => ?_))
  · have hk : (Fin.castAdd 256 k : Fin (256 + 256)).val < 256 := k.isLt
    show cat2 512 u v (Fin.castAdd 256 k) * g (Fin.castAdd 256 k) = u k * g ⟨k.val, _⟩
    unfold cat2
    rw [dif_pos hk]
    rfl
  · have h1 : ¬ (Fin.natAdd 256 k : Fin (256 + 256)).val < 256 := by
      show ¬ 256 + k.val < 256
      omega
    have h2 : (Fin.natAdd 256 k : Fin (256 + 256)).val - 256 < 256 := by
      show 256 + k.val - 256 < 256
      have := k.isLt
      omega
    show cat2 512 u v (Fin.natAdd 256 k) * g (Fin.natAdd 256 k) = v k * g ⟨256 + k.val, _⟩
    unfold cat2
    rw [dif_neg h1, dif_pos h2]
    refine congrArg₂ (· * ·) (congrArg v (Fin.ext ?_)) rfl
    show 256 + k.val - 256 = k.val
    omega

/-! ## The halves of a weight matrix, a bias as one row -/

/-- The upper 256 rows of a weight matrix of 512 rows. -/
def upper (W : (⟨2, ![512, 256]⟩ : Shape).Idx → EReal) : (⟨2, ![256, 256]⟩ : Shape).Idx → EReal :=
  fun j => W (ix2 (⟨(j 0).val, Nat.lt_of_lt_of_le (idx2_lt0 j) (by decide)⟩ : Fin 512) (⟨(j 1).val, idx2_lt1 j⟩ : Fin 256))

/-- The lower 256 rows. -/
def lower (W : (⟨2, ![512, 256]⟩ : Shape).Idx → EReal) : (⟨2, ![256, 256]⟩ : Shape).Idx → EReal :=
  fun j => W (ix2 (⟨256 + (j 0).val, Nat.add_lt_add_left (idx2_lt0 j) 256⟩ : Fin 512) (⟨(j 1).val, idx2_lt1 j⟩ : Fin 256))

/-- A bias of 256 entries as an array of one row. -/
def asRow (b : (⟨1, ![256]⟩ : Shape).Idx → EReal) : (⟨2, ![1, 256]⟩ : Shape).Idx → EReal :=
  fun j => b (ix1 (⟨(j 1).val, idx2_lt1 j⟩ : Fin 256))

/-! ## A gate's pre-activation and the cell -/

/-- A gate's pre-activation at column `c`: the row `u` against the upper half `Wh`, the row `v` against the lower
    half `Wx`, plus the bias row's entry. -/
def pre (Wh Wx : (⟨2, ![256, 256]⟩ : Shape).Idx → EReal) (b : (⟨2, ![1, 256]⟩ : Shape).Idx → EReal)
    (u v : Fin 256 → EReal) (c : Fin 256) : EReal :=
  (∑ k : Fin 256, u k * Wh (ix2 k c)) + (∑ k : Fin 256, v k * Wx (ix2 k c)) + b (ix2 (0 : Fin 1) c)

/-- The cell's new hidden entry at column `c`, from the input row `x` and the hidden row `h`:
    `(1 − z) · h_c + z · tanh(a_s(c))`, the candidate's hidden operand being `r ⊙ h`. -/
def cell (Wzh Wzx Wrh Wrx Wsh Wsx : (⟨2, ![256, 256]⟩ : Shape).Idx → EReal)
    (bz br bs : (⟨2, ![1, 256]⟩ : Shape).Idx → EReal) (x h : Fin 256 → EReal) (c : Fin 256) : EReal :=
  (Ideal.ofBits .f32 0x3F800000#32 - Ideal.logistic (pre Wzh Wzx bz h x c)) * h c
    + Ideal.logistic (pre Wzh Wzx bz h x c)
      * Ideal.tanh (pre Wsh Wsx bs (fun k => Ideal.logistic (pre Wrh Wrx br h x k) * h k) x c)

/-- The cell applied to every row of a batch of 16384 rows: entry `(n, c)` of the new hidden state. -/
def gru (x h : (⟨2, ![16384, 256]⟩ : Shape).Idx → EReal)
    (Wz : (⟨2, ![512, 256]⟩ : Shape).Idx → EReal) (bz : (⟨1, ![256]⟩ : Shape).Idx → EReal)
    (Wr : (⟨2, ![512, 256]⟩ : Shape).Idx → EReal) (br : (⟨1, ![256]⟩ : Shape).Idx → EReal)
    (Ws : (⟨2, ![512, 256]⟩ : Shape).Idx → EReal) (bs : (⟨1, ![256]⟩ : Shape).Idx → EReal) :
    (⟨2, ![16384, 256]⟩ : Shape).Idx → EReal :=
  fun i => cell (upper Wz) (lower Wz) (upper Wr) (lower Wr) (upper Ws) (lower Ws) (asRow bz) (asRow br) (asRow bs)
    (fun k => x (ix2 (⟨(i 0).val, idx2_lt0 i⟩ : Fin 16384) k)) (fun k => h (ix2 (⟨(i 0).val, idx2_lt0 i⟩ : Fin 16384) k))
    (⟨(i 1).val, idx2_lt1 i⟩ : Fin 256)

/-! ## The pre-activation in the concatenated spelling -/

/-- A dense layer of the row `[u, v]` against the whole weight matrix is the pre-activation over its two halves. -/
theorem dense_cat2 (W : (⟨2, ![512, 256]⟩ : Shape).Idx → EReal) (b : (⟨1, ![256]⟩ : Shape).Idx → EReal)
    (u v : Fin 256 → EReal) (c : Fin 256) :
    dense W b (cat2 512 u v) c = pre (upper W) (lower W) (asRow b) u v c :=
  congrArg (· + b (ix1 c)) (sum_cat2 u v (fun j => W (ix2 j c)))

/-- The concatenated spelling at row `n`, column `c`: `dot_general` of the two arrays joined along the columns against
    the weight matrix, plus the bias broadcast to one row and then down the rows. -/
theorem pre_host_apply {R : ℕ} (d : DotDims ⟨2, ![R, 512]⟩ ⟨2, ![512, 256]⟩ ⟨2, ![R, 256]⟩) (hd : d = DotDims.plain R 512 256)
    (y1 y0 : FVec Ideal ⟨2, ![R, 256]⟩ .f32) (W : FVec Ideal ⟨2, ![512, 256]⟩ .f32) (b : FVec Ideal ⟨1, ![256]⟩ .f32)
    (hc : Shape.Concatenates [(⟨2, ![R, 256]⟩ : Shape), ⟨2, ![R, 256]⟩] ⟨2, ![R, 512]⟩ 1)
    (h1 : (⟨1, ![256]⟩ : Shape).BroadcastsInDim ⟨2, ![1, 256]⟩ ![1])
    (h2 : (⟨2, ![1, 256]⟩ : Shape).BroadcastsInDim ⟨2, ![R, 256]⟩ ![0, 1]) (n : Fin R) (c : Fin 256) :
    addf (Host.dotGeneral d none (concatenate ⟨2, ![R, 512]⟩ 1 [⟨⟨2, ![R, 256]⟩, y1⟩, ⟨⟨2, ![R, 256]⟩, y0⟩] hc) W)
        (broadcastInDim ⟨2, ![R, 256]⟩ ![0, 1] h2 (broadcastInDim ⟨2, ![1, 256]⟩ ![1] h1 b)) (ix2 n c)
      = pre (upper W) (lower W) (asRow b) (fun k => y1 (ix2 n k)) (fun k => y0 (ix2 n k)) c := by
  rw [dense_host_apply' d hd]
  have hcat : (fun k : Fin 512 => concatenate ⟨2, ![R, 512]⟩ 1 [⟨⟨2, ![R, 256]⟩, y1⟩, ⟨⟨2, ![R, 256]⟩, y0⟩] hc (ix2 n k))
      = cat2 512 (fun k => y1 (ix2 n k)) (fun k => y0 (ix2 n k)) :=
    funext fun k => cat2_apply y1 y0 hc rfl n k
  rw [hcat]
  exact dense_cat2 W b _ _ c

/-! ## The pre-activation in the split spelling -/

/-- The split spelling at row `p`, column `q`: two matrix products into zero accumulators, of `u` against the one
    half and of `v` against the other, plus the bias row broadcast down the rows. -/
theorem pre_kernel_apply {R : ℕ} (d : DotDims ⟨2, ![R, 256]⟩ ⟨2, ![256, 256]⟩ ⟨2, ![R, 256]⟩) (hd : d = DotDims.plain R 256 256)
    (u v : FVec Ideal ⟨2, ![R, 256]⟩ .bf16) (wh wx : FVec Ideal ⟨2, ![256, 256]⟩ .bf16) (b : FVec Ideal ⟨2, ![1, 256]⟩ .f32)
    (hsh hsx : (⟨2, ![256, 256]⟩ : Shape).ShapeCasts ⟨2, ![256, 256]⟩) (hsb : (⟨2, ![1, 256]⟩ : Shape).ShapeCasts ⟨2, ![1, 256]⟩)
    (hbc : (⟨2, ![1, 256]⟩ : Shape).Broadcasts ⟨2, ![R, 256]⟩) (p : Fin R) (q : Fin 256) :
    addf (addf (matmul d none u (shapeCast ⟨2, ![256, 256]⟩ wh hsh) (constant ⟨2, ![R, 256]⟩ .f32 0x00000000#32))
          (matmul d none v (shapeCast ⟨2, ![256, 256]⟩ wx hsx) (constant ⟨2, ![R, 256]⟩ .f32 0x00000000#32)))
        (broadcastTo ⟨2, ![R, 256]⟩ (shapeCast ⟨2, ![1, 256]⟩ b hsb) hbc) (ix2 p q)
      = pre wh wx b (fun k => u (ix2 p k)) (fun k => v (ix2 p k)) q := by
  rw [shapeCast_self wh hsh, shapeCast_self wx hsx, shapeCast_self b hsb]
  show matmul d none u wh (constant ⟨2, ![R, 256]⟩ .f32 0x00000000#32) (ix2 p q)
      + matmul d none v wx (constant ⟨2, ![R, 256]⟩ .f32 0x00000000#32) (ix2 p q)
      + broadcastTo ⟨2, ![R, 256]⟩ b hbc (ix2 p q) = _
  rw [matmul_plain_apply d hd, matmul_plain_apply d hd, broadcastTo_1b_ab_apply]
  rfl

/-! ## The host's slices and reshape as the halves and the row -/

/-- The slice of the first 256 rows is the upper half. -/
theorem slice_upper (W : (⟨2, ![512, 256]⟩ : Shape).Idx → EReal)
    (h : (⟨2, ![512, 256]⟩ : Shape).Slices ![0, 0] ⟨2, ![256, 256]⟩) :
    extractStridedSlice ⟨2, ![256, 256]⟩ ![0, 0] W h = upper W := by
  funext j
  refine extractStridedSlice_apply _ W h j _ fun a => ?_
  match a with
  | ⟨0, _⟩ => exact (Nat.zero_add _).symm
  | ⟨1, _⟩ => exact (Nat.zero_add _).symm

/-- The slice of the last 256 rows is the lower half. -/
theorem slice_lower (W : (⟨2, ![512, 256]⟩ : Shape).Idx → EReal)
    (h : (⟨2, ![512, 256]⟩ : Shape).Slices ![256, 0] ⟨2, ![256, 256]⟩) :
    extractStridedSlice ⟨2, ![256, 256]⟩ ![256, 0] W h = lower W := by
  funext j
  refine extractStridedSlice_apply _ W h j _ fun a => ?_
  match a with
  | ⟨0, _⟩ => rfl
  | ⟨1, _⟩ => exact (Nat.zero_add _).symm

/-- A bias reshaped to one row is `asRow` of it. -/
theorem reshape_row (b : (⟨1, ![256]⟩ : Shape).Idx → EReal) (h : (⟨1, ![256]⟩ : Shape).ShapeCasts ⟨2, ![1, 256]⟩) :
    shapeCast ⟨2, ![1, 256]⟩ b h = asRow b := by
  funext j
  obtain ⟨z, q, rfl⟩ : ∃ (z : Fin 1) (q : Fin 256), j = ix2 z q := ⟨j 0, j 1, eq_ix2 j⟩
  exact shapeCast_a_1a_apply b h z q

end Gru

end
-- ==== Proof.GruKernel.lean ====
/-
  The kernel body's result block is the cell applied to every row of the block.

  The body reads a block of 2048 input rows `X0` and of 2048 hidden rows `X1`, the six half weight matrices and
  the three bias rows whole.  Each gate's pre-activation is two matrix products into zero accumulators (the
  operands narrowed, which changes nothing at the ideal values) plus the bias row broadcast down the rows; the
  gates are the logistic function; the candidate's hidden operand is the reset gate times the hidden block.
  At `(p, q)` the one stored value is therefore the cell of rows `p` of `X0` and `X1`, at column `q`.
-/
import proofs.«136330_j83760452207457_1_alg».proof.Proof.Gen.KernelIdeal.Frame
import proofs.«136330_j83760452207457_1_alg».proof.Proof.GruSpec

noncomputable section

namespace Cert.KernelIdeal.GruKernel

open Cert.KernelIdeal Cert.KernelIdeal.Gen Idealize.ShloMosaic Idealize.ShloMosaic.ValueIdx RowOps Gru

theorem hz : (![0, 0] : Fin 2 → Nat) = fun _ => 0 := funext fun a => by fin_cases a <;> rfl

variable (X0 X1 : Vec Ideal S2048x256 .f32)

/-- The update gate of the block at `(p, q)`. -/
theorem gateZ_at (W2 W3 : Vec Ideal S256x256 .bf16) (B8 : Vec Ideal S1x256 .f32) (p : Fin 2048) (q : Fin 256) :
    k0_pay6 (F := Ideal) X0 X1 W2 W3 B8 (ix2 p q)
      = Ideal.logistic (pre W2 W3 B8 (fun k => X1 (ix2 p k)) (fun k => X0 (ix2 p k)) q) := by
  unfold k0_pay6 k0_pay3 k0_pay2
  exact congrArg Ideal.logistic (pre_kernel_apply _ rfl _ _ W2 W3 B8 _ _ _ _ p q)

/-- The reset gate times the hidden block at `(p, q)` (then narrowed, which changes nothing). -/
theorem resetH_at (W4 W5 : Vec Ideal S256x256 .bf16) (B9 : Vec Ideal S1x256 .f32) (p : Fin 2048) (q : Fin 256) :
    k0_pay7 (F := Ideal) X0 X1 W4 W5 B9 (ix2 p q)
      = Ideal.logistic (pre W4 W5 B9 (fun k => X1 (ix2 p k)) (fun k => X0 (ix2 p k)) q) * X1 (ix2 p q) := by
  unfold k0_pay7 k0_pay3 k0_pay2
  exact congrArg (· * X1 (ix2 p q)) (congrArg Ideal.logistic (pre_kernel_apply _ rfl _ _ W4 W5 B9 _ _ _ _ p q))

/-- The stored value at `(p, q)`, for any update gate `Z` and any hidden operand `RH` of the candidate. -/
theorem blend_at (W6 W7 : Vec Ideal S256x256 .bf16) (B10 : Vec Ideal S1x256 .f32)
    (Z : FVec Ideal S2048x256 .f32) (RH : FVec Ideal S2048x256 .bf16) (p : Fin 2048) (q : Fin 256) :
    k0_pay1 (F := Ideal) X1 (k0_pay2 X0) (k0_pay4 W6) (k0_pay5 W7) Z RH (constant S2048x256 .f32 0x00000000#32) B10 (ix2 p q)
      = (Ideal.ofBits .f32 0x3F800000#32 - Z (ix2 p q)) * X1 (ix2 p q)
        + Z (ix2 p q) * Ideal.tanh (pre W6 W7 B10 (fun k => RH (ix2 p k)) (fun k => X0 (ix2 p k)) q) := by
  unfold k0_pay1 k0_pay2 k0_pay4 k0_pay5
  exact congrArg (fun s => (Ideal.ofBits .f32 0x3F800000#32 - Z (ix2 p q)) * X1 (ix2 p q) + Z (ix2 p q) * Ideal.tanh s)
    (pre_kernel_apply _ rfl RH _ W6 W7 B10 _ _ _ _ p q)

/-- The body's result block: the cell of each row of the input and hidden blocks. -/
theorem out_eq (W2 W3 W4 W5 W6 W7 : Vec Ideal S256x256 .bf16) (B8 B9 B10 : Vec Ideal S1x256 .f32) :
    out0_11 (F := Ideal) X0 X1 W2 W3 W4 W5 W6 W7 B8 B9 B10
      = fun j => cell W2 W3 W4 W5 W6 W7 B8 B9 B10
          (fun k => X0 (ix2 (⟨(j 0).val, idx2_lt0 j⟩ : Fin 2048) k)) (fun k => X1 (ix2 (⟨(j 0).val, idx2_lt0 j⟩ : Fin 2048) k))
          (⟨(j 1).val, idx2_lt1 j⟩ : Fin 256) := by
  unfold out0_11
  rw [View.canon_unit_zero hz]
  simp only [View.ld_unit_zero (S := S2048x256) hz, View.ld_unit_zero (S := S256x256) hz, View.ld_unit_zero (S := S1x256) hz]
  funext j
  obtain ⟨p, q, rfl⟩ : ∃ (p : Fin 2048) (q : Fin 256), j = ix2 p q := ⟨j 0, j 1, eq_ix2 j⟩
  refine (blend_at X0 X1 W6 W7 B10 (k0_pay6 X0 X1 W2 W3 B8) (k0_pay7 X0 X1 W4 W5 B9) p q).trans ?_
  have hrow : (fun k : Fin 256 => k0_pay7 (F := Ideal) X0 X1 W4 W5 B9 (ix2 p k))
      = fun k => Ideal.logistic (pre W4 W5 B9 (fun k => X1 (ix2 p k)) (fun k => X0 (ix2 p k)) k) * X1 (ix2 p k) :=
    funext fun k => resetH_at X0 X1 W4 W5 B9 p k
  rw [gateZ_at X0 X1 W2 W3 B8 p q, hrow]
  rfl

end Cert.KernelIdeal.GruKernel

end
-- ==== Proof.GruBlocks.lean ====
/-
  From the blocks to the array: the kernel's result array is the cell applied to every row of the batch.

  The grid has 8 points; point `t` reads rows `2048 t … 2048 t + 2047` of the input and of the hidden state, and
  writes the same rows of the result; the six half weight matrices and the three bias rows are read whole at every
  point.  Before the region the host cuts each weight matrix of 512 rows into its upper and lower 256 rows (then
  narrows them, which changes nothing at the ideal values) and reshapes each bias to one row.  So point `t` writes
  block `t` of the array whose row `n` is the cell of rows `n` of the input and the hidden state, and the 8 blocks
  cover the 16384 rows.
-/
import proofs.«136330_j83760452207457_1_alg».proof.Proof.Gen.KernelIdeal.Value
import proofs.«136330_j83760452207457_1_alg».proof.Proof.GruKernel

noncomputable section

namespace Cert.KernelIdeal.GruBlocks

open Cert.KernelIdeal Cert.KernelIdeal.Gen Cert.KernelIdeal.Value Cert.KernelIdeal.GruKernel
open Idealize.ShloMosaic Idealize.ShloMosaic.TcCoe Idealize.SL.Sem Idealize.ShloMosaic.ValueIdx RowOps Gru
open Idealize.ShloMosaic.Pipeline (Dat)

variable (m : (ℓ : Loc nD τ sig) → Buf (Elt Ideal) ℓ) (ρ : Dev nD → PrngReg)

/-! ## The arrays the region finds -/

/-- Window 2's array: the upper half of the update gate's weight matrix. -/
theorem arr2 (c : Dev nD) : (V m c main_v6 : S256x256.Idx → EReal) = upper (m ((c : Thread nD τ).loc main_arg2)) := by
  have e : (V m c main_v6 : S256x256.Idx → EReal)
      = truncf (F := Ideal) .bf16 (extractStridedSlice S256x256 ![0, 0] (m ((c : Thread nD τ).loc main_arg2)) slices_S512x256_S256x256_0_0) bitsLt_bf16_f32 := by
    dsimp only [V, hostOps0]; after_results <;> rfl
  rw [e]
  exact slice_upper (m ((c : Thread nD τ).loc main_arg2)) slices_S512x256_S256x256_0_0

/-- Window 3's array: the lower half of the update gate's weight matrix. -/
theorem arr3 (c : Dev nD) : (V m c main_v7 : S256x256.Idx → EReal) = lower (m ((c : Thread nD τ).loc main_arg2)) := by
  have e : (V m c main_v7 : S256x256.Idx → EReal)
      = truncf (F := Ideal) .bf16 (extractStridedSlice S256x256 ![256, 0] (m ((c : Thread nD τ).loc main_arg2)) slices_S512x256_S256x256_256_0) bitsLt_bf16_f32 := by
    dsimp only [V, hostOps0]; after_results <;> rfl
  rw [e]
  exact slice_lower (m ((c : Thread nD τ).loc main_arg2)) slices_S512x256_S256x256_256_0

/-- Window 4's array: the upper half of the reset gate's weight matrix. -/
theorem arr4 (c : Dev nD) : (V m c main_v8 : S256x256.Idx → EReal) = upper (m ((c : Thread nD τ).loc main_arg4)) := by
  have e : (V m c main_v8 : S256x256.Idx → EReal)
      = truncf (F := Ideal) .bf16 (extractStridedSlice S256x256 ![0, 0] (m ((c : Thread nD τ).loc main_arg4)) slices_S512x256_S256x256_0_0) bitsLt_bf16_f32 := by
    dsimp only [V, hostOps0]; after_results <;> rfl
  rw [e]
  exact slice_upper (m ((c : Thread nD τ).loc main_arg4)) slices_S512x256_S256x256_0_0

/-- Window 5's array: the lower half of the reset gate's weight matrix. -/
theorem arr5 (c : Dev nD) : (V m c main_v9 : S256x256.Idx → EReal) = lower (m ((c : Thread nD τ).loc main_arg4)) := by
  have e : (V m c main_v9 : S256x256.Idx → EReal)
      = truncf (F := Ideal) .bf16 (extractStridedSlice S256x256 ![256, 0] (m ((c : Thread nD τ).loc main_arg4)) slices_S512x256_S256x256_256_0) bitsLt_bf16_f32 := by
    dsimp only [V, hostOps0]; after_results <;> rfl
  rw [e]
  exact slice_lower (m ((c : Thread nD τ).loc main_arg4)) slices_S512x256_S256x256_256_0

/-- Window 6's array: the upper half of the candidate's weight matrix. -/
theorem arr6 (c : Dev nD) : (V m c main_v10 : S256x256.Idx → EReal) = upper (m ((c : Thread nD τ).loc main_arg6)) := by
  have e : (V m c main_v10 : S256x256.Idx → EReal)
      = truncf (F := Ideal) .bf16 (extractStridedSlice S256x256 ![0, 0] (m ((c : Thread nD τ).loc main_arg6)) slices_S512x256_S256x256_0_0) bitsLt_bf16_f32 := by
    dsimp only [V, hostOps0]; after_results <;> rfl
  rw [e]
  exact slice_upper (m ((c : Thread nD τ).loc main_arg6)) slices_S512x256_S256x256_0_0

/-- Window 7's array: the lower half of the candidate's weight matrix. -/
theorem arr7 (c : Dev nD) : (V m c main_v11 : S256x256.Idx → EReal) = lower (m ((c : Thread nD τ).loc main_arg6)) := by
  have e : (V m c main_v11 : S256x256.Idx → EReal)
      = truncf (F := Ideal) .bf16 (extractStridedSlice S256x256 ![256, 0] (m ((c : Thread nD τ).loc main_arg6)) slices_S512x256_S256x256_256_0) bitsLt_bf16_f32 := by
    dsimp only [V, hostOps0]; after_results <;> rfl
  rw [e]
  exact slice_lower (m ((c : Thread nD τ).loc main_arg6)) slices_S512x256_S256x256_256_0

/-- Window 8's array: the update gate's bias as one row. -/
theorem arr8 (c : Dev nD) : (V m c main_v12 : S1x256.Idx → EReal) = asRow (m ((c : Thread nD τ).loc main_arg3)) := by
  have e : (V m c main_v12 : S1x256.Idx → EReal)
      = shapeCast S1x256 (m ((c : Thread nD τ).loc main_arg3)) shapeCasts_S256_S1x256 := by
    dsimp only [V, hostOps0]; after_results <;> rfl
  rw [e]
  exact reshape_row _ _

/-- Window 9's array: the reset gate's bias as one row. -/
theorem arr9 (c : Dev nD) : (V m c main_v13 : S1x256.Idx → EReal) = asRow (m ((c : Thread nD τ).loc main_arg5)) := by
  have e : (V m c main_v13 : S1x256.Idx → EReal)
      = shapeCast S1x256 (m ((c : Thread nD τ).loc main_arg5)) shapeCasts_S256_S1x256 := by
    dsimp only [V, hostOps0]; after_results <;> rfl
  rw [e]
  exact reshape_row _ _

/-- Window 10's array: the candidate's bias as one row. -/
theorem arr10 (c : Dev nD) : (V m c main_v14 : S1x256.Idx → EReal) = asRow (m ((c : Thread nD τ).loc main_arg7)) := by
  have e : (V m c main_v14 : S1x256.Idx → EReal)
      = shapeCast S1x256 (m ((c : Thread nD τ).loc main_arg7)) shapeCasts_S256_S1x256 := by
    dsimp only [V, hostOps0]; after_results <;> rfl
  rw [e]
  exact reshape_row _ _

/-! ## The printed index maps, decided over the grid -/

/-- The input and hidden windows move with the output window down the rows, at column block 0; point `t` is row block `t`. -/
theorem idx_rows : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_11.index t (0 : Fin 2) = t.val ∧ win0_11.index t (1 : Fin 2) = 0 :=
  (by decide +kernel : ∀ t : Fin grid0.N, _)

/-- The weight and bias windows stay at block (0, 0). -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-! ## The blocks a point reads: the weights and the biases whole -/

theorem blk2 (c : Dev nD) (t : Fin cfg0.N) :
    (iblk m c 2 t : S256x256.Idx → EReal) = upper (m ((c : Thread nD τ).loc main_arg2)) := by
  obtain ⟨⟨h0, h1⟩, -⟩ := idx_whole t
  funext y
  unfold iblk
  rw [View.read_apply]
  show (V m c main_v6 : S256x256.Idx → EReal) (((cfg0.win 2).blk t).view.emb y) = _
  rw [arr2 m c]
  refine congrArg (upper (m ((c : Thread nD τ).loc main_arg2))) (funext fun a => Fin.ext ?_)
  match a with
  | ⟨0, _⟩ => show win0_2.index t (0 : Fin 2) * 256 + 1 * (y 0).val = (y 0).val; rw [h0]; omega
  | ⟨1, _⟩ => show win0_2.index t (1 : Fin 2) * 256 + 1 * (y 1).val = (y 1).val; rw [h1]; omega

theorem blk3 (c : Dev nD) (t : Fin cfg0.N) :
    (iblk m c 3 t : S256x256.Idx → EReal) = lower (m ((c : Thread nD τ).loc main_arg2)) := by
  obtain ⟨-, ⟨h0, h1⟩, -⟩ := idx_whole t
  funext y
  unfold iblk
  rw [View.read_apply]
  show (V m c main_v7 : S256x256.Idx → EReal) (((cfg0.win 3).blk t).view.emb y) = _
  rw [arr3 m c]
  refine congrArg (lower (m ((c : Thread nD τ).loc main_arg2))) (funext fun a => Fin.ext ?_)
  match a with
  | ⟨0, _⟩ => show win0_3.index t (0 : Fin 2) * 256 + 1 * (y 0).val = (y 0).val; rw [h0]; omega
  | ⟨1, _⟩ => show win0_3.index t (1 : Fin 2) * 256 + 1 * (y 1).val = (y 1).val; rw [h1]; omega

theorem blk4 (c : Dev nD) (t : Fin cfg0.N) :
    (iblk m c 4 t : S256x256.Idx → EReal) = upper (m ((c : Thread nD τ).loc main_arg4)) := by
  obtain ⟨-, -, ⟨h0, h1⟩, -⟩ := idx_whole t
  funext y
  unfold iblk
  rw [View.read_apply]
  show (V m c main_v8 : S256x256.Idx → EReal) (((cfg0.win 4).blk t).view.emb y) = _
  rw [arr4 m c]
  refine congrArg (upper (m ((c : Thread nD τ).loc main_arg4))) (funext fun a => Fin.ext ?_)
  match a with
  | ⟨0, _⟩ => show win0_4.index t (0 : Fin 2) * 256 + 1 * (y 0).val = (y 0).val; rw [h0]; omega
  | ⟨1, _⟩ => show win0_4.index t (1 : Fin 2) * 256 + 1 * (y 1).val = (y 1).val; rw [h1]; omega

theorem blk5 (c : Dev nD) (t : Fin cfg0.N) :
    (iblk m c 5 t : S256x256.Idx → EReal) = lower (m ((c : Thread nD τ).loc main_arg4)) := by
  obtain ⟨-, -, -, ⟨h0, h1⟩, -⟩ := idx_whole t
  funext y
  unfold iblk
  rw [View.read_apply]
  show (V m c main_v9 : S256x256.Idx → EReal) (((cfg0.win 5).blk t).view.emb y) = _
  rw [arr5 m c]
  refine congrArg (lower (m ((c : Thread nD τ).loc main_arg4))) (funext fun a => Fin.ext ?_)
  match a with
  | ⟨0, _⟩ => show win0_5.index t (0 : Fin 2) * 256 + 1 * (y 0).val = (y 0).val; rw [h0]; omega
  | ⟨1, _⟩ => show win0_5.index t (1 : Fin 2) * 256 + 1 * (y 1).val = (y 1).val; rw [h1]; omega

theorem blk6 (c : Dev nD) (t : Fin cfg0.N) :
    (iblk m c 6 t : S256x256.Idx → EReal) = upper (m ((c : Thread nD τ).loc main_arg6)) := by
  obtain ⟨-, -, -, -, ⟨h0, h1⟩, -⟩ := idx_whole t
  funext y
  unfold iblk
  rw [View.read_apply]
  show (V m c main_v10 : S256x256.Idx → EReal) (((cfg0.win 6).blk t).view.emb y) = _
  rw [arr6 m c]
  refine congrArg (upper (m ((c : Thread nD τ).loc main_arg6))) (funext fun a => Fin.ext ?_)
  match a with
  | ⟨0, _⟩ => show win0_6.index t (0 : Fin 2) * 256 + 1 * (y 0).val = (y 0).val; rw [h0]; omega
  | ⟨1, _⟩ => show win0_6.index t (1 : Fin 2) * 256 + 1 * (y 1).val = (y 1).val; rw [h1]; omega

theorem blk7 (c : Dev nD) (t : Fin cfg0.N) :
    (iblk m c 7 t : S256x256.Idx → EReal) = lower (m ((c : Thread nD τ).loc main_arg6)) := by
  obtain ⟨-, -, -, -, -, ⟨h0, h1⟩, -⟩ := idx_whole t
  funext y
  unfold iblk
  rw [View.read_apply]
  show (V m c main_v11 : S256x256.Idx → EReal) (((cfg0.win 7).blk t).view.emb y) = _
  rw [arr7 m c]
  refine congrArg (lower (m ((c : Thread nD τ).loc main_arg6))) (funext fun a => Fin.ext ?_)
  match a with
  | ⟨0, _⟩ => show win0_7.index t (0 : Fin 2) * 256 + 1 * (y 0).val = (y 0).val; rw [h0]; omega
  | ⟨1, _⟩ => show win0_7.index t (1 : Fin 2) * 256 + 1 * (y 1).val = (y 1).val; rw [h1]; omega

theorem blk8 (c : Dev nD) (t : Fin cfg0.N) :
    (iblk m c 8 t : S1x256.Idx → EReal) = asRow (m ((c : Thread nD τ).loc main_arg3)) := by
  obtain ⟨-, -, -, -, -, -, ⟨h0, h1⟩, -⟩ := idx_whole t
  funext y
  unfold iblk
  rw [View.read_apply]
  show (V m c main_v12 : S1x256.Idx → EReal) (((cfg0.win 8).blk t).view.emb y) = _
  rw [arr8 m c]
  refine congrArg (asRow (m ((c : Thread nD τ).loc main_arg3))) (funext fun a => Fin.ext ?_)
  match a with
  | ⟨0, _⟩ => show win0_8.index t (0 : Fin 2) * 1 + 1 * (y 0).val = (y 0).val; rw [h0]; omega
  | ⟨1, _⟩ => show win0_8.index t (1 : Fin 2) * 256 + 1 * (y 1).val = (y 1).val; rw [h1]; omega

theorem blk9 (c : Dev nD) (t : Fin cfg0.N) :
    (iblk m c 9 t : S1x256.Idx → EReal) = asRow (m ((c : Thread nD τ).loc main_arg5)) := by
  obtain ⟨-, -, -, -, -, -, -, ⟨h0, h1⟩, -⟩ := idx_whole t
  funext y
  unfold iblk
  rw [View.read_apply]
  show (V m c main_v13 : S1x256.Idx → EReal) (((cfg0.win 9).blk t).view.emb y) = _
  rw [arr9 m c]
  refine congrArg (asRow (m ((c : Thread nD τ).loc main_arg5))) (funext fun a => Fin.ext ?_)
  match a with
  | ⟨0, _⟩ => show win0_9.index t (0 : Fin 2) * 1 + 1 * (y 0).val = (y 0).val; rw [h0]; omega
  | ⟨1, _⟩ => show win0_9.index t (1 : Fin 2) * 256 + 1 * (y 1).val = (y 1).val; rw [h1]; omega

theorem blk10 (c : Dev nD) (t : Fin cfg0.N) :
    (iblk m c 10 t : S1x256.Idx → EReal) = asRow (m ((c : Thread nD τ).loc main_arg7)) := by
  obtain ⟨-, -, -, -, -, -, -, -, h0, h1⟩ := idx_whole t
  funext y
  unfold iblk
  rw [View.read_apply]
  show (V m c main_v14 : S1x256.Idx → EReal) (((cfg0.win 10).blk t).view.emb y) = _
  rw [arr10 m c]
  refine congrArg (asRow (m ((c : Thread nD τ).loc main_arg7))) (funext fun a => Fin.ext ?_)
  match a with
  | ⟨0, _⟩ => show win0_10.index t (0 : Fin 2) * 1 + 1 * (y 0).val = (y 0).val; rw [h0]; omega
  | ⟨1, _⟩ => show win0_10.index t (1 : Fin 2) * 256 + 1 * (y 1).val = (y 1).val; rw [h1]; omega

/-! ## The blocks a point reads: 2048 rows of the input and of the hidden state -/

/-- Window 0's block at point `t`, row `p`: row `r` of the input, where `r = 2048 · (the point's row block) + p`. -/
theorem blk0_at (c : Dev nD) (t : Fin cfg0.N) (p : Fin 2048) (k : Fin 256) (r : Fin 16384)
    (hr : r.val = win0_11.index t (0 : Fin 2) * 2048 + p.val) :
    (iblk m c 0 t : S2048x256.Idx → EReal) (ix2 p k) = (m ((c : Thread nD τ).loc main_arg0) : S16384x256.Idx → EReal) (ix2 r k) := by
  obtain ⟨e00, e01, -⟩ := idx_rows t
  unfold iblk
  rw [View.read_apply]
  show (V m c main_arg0 : S16384x256.Idx → EReal) (((cfg0.win 0).blk t).view.emb (ix2 p k)) = _
  rw [V_main_arg0 m c]
  refine congrArg (m ((c : Thread nD τ).loc main_arg0) : S16384x256.Idx → EReal) (funext fun a => Fin.ext ?_)
  match a with
  | ⟨0, _⟩ => show win0_0.index t (0 : Fin 2) * 2048 + 1 * p.val = r.val; rw [hr, e00]; omega
  | ⟨1, _⟩ => show win0_0.index t (1 : Fin 2) * 256 + 1 * k.val = k.val; rw [e01]; omega

/-- Window 1's block at point `t`, row `p`: row `r` of the hidden state. -/
theorem blk1_at (c : Dev nD) (t : Fin cfg0.N) (p : Fin 2048) (k : Fin 256) (r : Fin 16384)
    (hr : r.val = win0_11.index t (0 : Fin 2) * 2048 + p.val) :
    (iblk m c 1 t : S2048x256.Idx → EReal) (ix2 p k) = (m ((c : Thread nD τ).loc main_arg1) : S16384x256.Idx → EReal) (ix2 r k) := by
  obtain ⟨-, -, e10, e11, -⟩ := idx_rows t
  unfold iblk
  rw [View.read_apply]
  show (V m c main_arg1 : S16384x256.Idx → EReal) (((cfg0.win 1).blk t).view.emb (ix2 p k)) = _
  rw [V_main_arg1 m c]
  refine congrArg (m ((c : Thread nD τ).loc main_arg1) : S16384x256.Idx → EReal) (funext fun a => Fin.ext ?_)
  match a with
  | ⟨0, _⟩ => show win0_1.index t (0 : Fin 2) * 2048 + 1 * p.val = r.val; rw [hr, e10]; omega
  | ⟨1, _⟩ => show win0_1.index t (1 : Fin 2) * 256 + 1 * k.val = k.val; rw [e11]; omega

/-! ## What a point writes back, and the array after the run -/

/-- The array the result ends holding: the cell applied to every row of the batch. -/
abbrev G (c : Dev nD) : S16384x256.Idx → EReal :=
  gru (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- The cell of row `p` of point `t`'s blocks is entry `i` of `G`, when `i` is row `2048 · (row block) + p`, column `q`. -/
theorem cell_rows (c : Dev nD) (t : Fin cfg0.N) (p : Fin 2048) (q : Fin 256) (i : S16384x256.Idx)
    (hi0 : (i 0).val = win0_11.index t (0 : Fin 2) * 2048 + p.val) (hi1 : (i 1).val = q.val) :
    cell (upper (m ((c : Thread nD τ).loc main_arg2))) (lower (m ((c : Thread nD τ).loc main_arg2)))
        (upper (m ((c : Thread nD τ).loc main_arg4))) (lower (m ((c : Thread nD τ).loc main_arg4)))
        (upper (m ((c : Thread nD τ).loc main_arg6))) (lower (m ((c : Thread nD τ).loc main_arg6)))
        (asRow (m ((c : Thread nD τ).loc main_arg3))) (asRow (m ((c : Thread nD τ).loc main_arg5)))
        (asRow (m ((c : Thread nD τ).loc main_arg7)))
        (fun k => (iblk m c 0 t : S2048x256.Idx → EReal) (ix2 p k)) (fun k => (iblk m c 1 t : S2048x256.Idx → EReal) (ix2 p k)) q
      = G m c i := by
  have hx : (fun k : Fin 256 => (iblk m c 0 t : S2048x256.Idx → EReal) (ix2 p k))
      = fun k => (m ((c : Thread nD τ).loc main_arg0) : S16384x256.Idx → EReal) (ix2 (⟨(i 0).val, idx2_lt0 i⟩ : Fin 16384) k) :=
    funext fun k => blk0_at m c t p k _ hi0
  have hh : (fun k : Fin 256 => (iblk m c 1 t : S2048x256.Idx → EReal) (ix2 p k))
      = fun k => (m ((c : Thread nD τ).loc main_arg1) : S16384x256.Idx → EReal) (ix2 (⟨(i 0).val, idx2_lt0 i⟩ : Fin 16384) k) :=
    funext fun k => blk1_at m c t p k _ hi0
  have hq : q = (⟨(i 1).val, idx2_lt1 i⟩ : Fin 256) := Fin.ext hi1.symm
  rw [hx, hh, hq]
  rfl

/-- WHAT POINT `t` WRITES BACK is block `t` of `G`. -/
theorem flushed_eq (c : Dev nD) (t : Fin cfg0.N) :
    (dats m 0 c).flushed 11 t = ((cfg0.win 11).blk t).view.read (Elt Ideal) (G m c) := by
  obtain ⟨-, -, -, -, -, e1⟩ := idx_rows t
  rw [flushed11, out_eq (iblk m c 0 t) (iblk m c 1 t) (iblk m c 2 t) (iblk m c 3 t) (iblk m c 4 t) (iblk m c 5 t)
    (iblk m c 6 t) (iblk m c 7 t) (iblk m c 8 t) (iblk m c 9 t) (iblk m c 10 t),
    blk2 m c t, blk3 m c t, blk4 m c t, blk5 m c t, blk6 m c t, blk7 m c t, blk8 m c t, blk9 m c t, blk10 m c t]
  funext y
  rw [View.read_apply]
  exact cell_rows m c t ((cfg0.win 11).xinj (grid0.coords t) y 0) ((cfg0.win 11).xinj (grid0.coords t) y 1)
    (((cfg0.win 11).blk t).view.emb y)
    (by show win0_11.index t (0 : Fin 2) * 2048 + 1 * (y 0).val = win0_11.index t (0 : Fin 2) * 2048 + (y 0).val; omega)
    (by show win0_11.index t (1 : Fin 2) * 256 + 1 * (y 1).val = (y 1).val; rw [e1]; omega)

/-- An index of the array is in point `t`'s block iff each coordinate is in the block's range on its axis. -/
theorem mem_blk (t : Fin cfg0.N) (i : S16384x256.Idx) :
    i ∈ ((cfg0.win 11).blk t).view.set ↔ ∀ a : Fin 2, win0_11.index t a * S2048x256.size a ≤ (i a).val ∧ (i a).val < win0_11.index t a * S2048x256.size a + S2048x256.size a := by
  show i ∈ ((View.whole main_v15).slice (win0_11.rect t)).set ↔ _
  rw [View.set_slice_whole, Rect.mem_set_unit]
  exact Iff.rfl

/-- The 8 blocks of 2048 rows cover the 16384 rows: row `n` is in block `n / 2048`. -/
theorem cover (i : S16384x256.Idx) : ∃ t : Fin cfg0.N, (cfg0.win 11).flush t = true ∧ i ∈ ((cfg0.win 11).blk t).view.set := by
  have hi0 : (i 0).val < 16384 := (i 0).isLt
  have hi1 : (i 1).val < 256 := (i 1).isLt
  have hN : cfg0.N = 8 := N_0
  let t : Fin cfg0.N := ⟨(i 0).val / 2048, by rw [hN]; omega⟩
  obtain ⟨-, -, -, -, e0, e1⟩ := idx_rows t
  have ht : t.val = (i 0).val / 2048 := rfl
  refine ⟨t, flush0_11 t, ?_⟩
  rw [mem_blk]
  intro a
  match a with
  | ⟨0, _⟩ =>
    show win0_11.index t (0 : Fin 2) * 2048 ≤ (i 0).val ∧ (i 0).val < win0_11.index t (0 : Fin 2) * 2048 + 2048
    rw [e0, ht]; omega
  | ⟨1, _⟩ =>
    show win0_11.index t (1 : Fin 2) * 256 ≤ (i 1).val ∧ (i 1).val < win0_11.index t (1 : Fin 2) * 256 + 256
    rw [e1]; omega

/-- THE ARRAY after the run is `G`. -/
theorem final (c : Dev nD) : (dats m 0 c).arrAt 11 cfg0.N = G m c :=
  (dats m 0 c).arrAt_eq_of_cover 11 (G m c) (fun t _ => flushed_eq m c t) cover

/-- The kernel's run, read: the result array is `G`, the arguments unchanged. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.GruBlocks

end
-- ==== Proof.GruRef.lean ====
/-
  The reference program's result is the cell applied to every row.

  Stage by stage at a row `n`: each of the three pre-activations is one `dot_general` of two arrays joined along
  the columns against a weight matrix of 512 rows, plus a bias broadcast in two steps — the pre-activation over the
  matrix's two halves (the split of the sum over 512 positions); the gates are the logistic function spelt as
  one over one plus the exponential of the negation; the candidate's hidden operand is the reset gate times the
  hidden state, entry by entry; the result blends the hidden state and the candidate by the update gate.
-/
import proofs.«136330_j83760452207457_1_alg».proof.Proof.RefRead
import proofs.«136330_j83760452207457_1_alg».proof.Proof.GruSpec

noncomputable section

namespace Cert.ReferenceIdeal.GruRef

open Cert.ReferenceIdeal Cert.ReferenceIdeal.PRead Idealize.ShloMosaic Idealize.ShloMosaic.ValueIdx RowOps Gru

variable (x0 x1 : (⟨S16384x256, .f32⟩ : BufTy).Contents (Elt Ideal))
variable (x2 : (⟨S512x256, .f32⟩ : BufTy).Contents (Elt Ideal)) (x3 : (⟨S256, .f32⟩ : BufTy).Contents (Elt Ideal))
variable (x4 : (⟨S512x256, .f32⟩ : BufTy).Contents (Elt Ideal)) (x5 : (⟨S256, .f32⟩ : BufTy).Contents (Elt Ideal))
variable (x6 : (⟨S512x256, .f32⟩ : BufTy).Contents (Elt Ideal)) (x7 : (⟨S256, .f32⟩ : BufTy).Contents (Elt Ideal))

/-- The update gate's pre-activation at `(n, q)`: the hidden row and the input row against the two halves of `x2`. -/
theorem preZ_at (n : Fin 16384) (q : Fin 256) :
    val_main_v4 (F := Ideal) x0 x1 x2 x3 (ix2 n q)
      = pre (upper x2) (lower x2) (asRow x3) (fun k => x1 (ix2 n k)) (fun k => x0 (ix2 n k)) q := by
  unfold val_main_v4 val_main_v1 val_main_v3 val_main_v2 val_main_v0
  exact pre_host_apply _ rfl x1 x0 x2 x3 _ _ _ n q

/-- The update gate at `(n, q)`. -/
theorem gateZ_at (n : Fin 16384) (q : Fin 256) :
    val_main_v10 (F := Ideal) x0 x1 x2 x3 (ix2 n q)
      = Ideal.logistic (pre (upper x2) (lower x2) (asRow x3) (fun k => x1 (ix2 n k)) (fun k => x0 (ix2 n k)) q) := by
  rw [← preZ_at]
  unfold val_main_v10 val_main_v9 val_main_v8 val_main_v7 val_main_v6 val_main_v5 val_main_cst val_main_cst_0
  exact logistic_host_apply _ _ _ _ _

/-- The reset gate's pre-activation at `(n, q)`. -/
theorem preR_at (n : Fin 16384) (q : Fin 256) :
    val_main_v14 (F := Ideal) x0 x1 x4 x5 (ix2 n q)
      = pre (upper x4) (lower x4) (asRow x5) (fun k => x1 (ix2 n k)) (fun k => x0 (ix2 n k)) q := by
  unfold val_main_v14 val_main_v11 val_main_v13 val_main_v12 val_main_v0
  exact pre_host_apply _ rfl x1 x0 x4 x5 _ _ _ n q

/-- The reset gate times the hidden state at `(n, q)`. -/
theorem resetH_at (n : Fin 16384) (q : Fin 256) :
    val_main_v21 (F := Ideal) x0 x1 x4 x5 (ix2 n q)
      = Ideal.logistic (pre (upper x4) (lower x4) (asRow x5) (fun k => x1 (ix2 n k)) (fun k => x0 (ix2 n k)) q) * x1 (ix2 n q) := by
  rw [← preR_at]
  unfold val_main_v21 val_main_v20 val_main_v19 val_main_v18 val_main_v17 val_main_v16 val_main_v15 val_main_cst_1 val_main_cst_2
  exact congrArg (· * x1 (ix2 n q)) (logistic_host_apply _ _ _ _ _)

/-- The candidate's pre-activation at `(n, q)`: the hidden operand is the reset gate times the hidden row. -/
theorem preS_at (n : Fin 16384) (q : Fin 256) :
    val_main_v26 (F := Ideal) x0 x1 x4 x5 x6 x7 (ix2 n q)
      = pre (upper x6) (lower x6) (asRow x7)
          (fun k => Ideal.logistic (pre (upper x4) (lower x4) (asRow x5) (fun k => x1 (ix2 n k)) (fun k => x0 (ix2 n k)) k) * x1 (ix2 n k))
          (fun k => x0 (ix2 n k)) q := by
  have hrow : (fun k : Fin 256 => val_main_v21 (F := Ideal) x0 x1 x4 x5 (ix2 n k))
      = fun k => Ideal.logistic (pre (upper x4) (lower x4) (asRow x5) (fun k => x1 (ix2 n k)) (fun k => x0 (ix2 n k)) k) * x1 (ix2 n k) :=
    funext fun k => resetH_at x0 x1 x4 x5 n k
  rw [← hrow]
  unfold val_main_v26 val_main_v23 val_main_v25 val_main_v24 val_main_v22
  exact pre_host_apply _ rfl (val_main_v21 (F := Ideal) x0 x1 x4 x5) x0 x6 x7 _ _ _ n q

/-- The reference's result is the cell applied to every row. -/
theorem result_eq : val_main_v32 (F := Ideal) x0 x1 x2 x3 x4 x5 x6 x7 = gru x0 x1 x2 x3 x4 x5 x6 x7 := by
  funext i
  obtain ⟨n, q, rfl⟩ : ∃ (n : Fin 16384) (q : Fin 256), i = ix2 n q := ⟨i 0, i 1, eq_ix2 i⟩
  show (val_main_v28 (F := Ideal) (ix2 n q) - val_main_v10 (F := Ideal) x0 x1 x2 x3 (ix2 n q)) * x1 (ix2 n q)
      + val_main_v10 (F := Ideal) x0 x1 x2 x3 (ix2 n q) * Ideal.tanh (val_main_v26 (F := Ideal) x0 x1 x4 x5 x6 x7 (ix2 n q)) = _
  rw [gateZ_at, preS_at]
  rfl

end Cert.ReferenceIdeal.GruRef

end
-- ==== Proof.lean ====
/-
  A gated recurrent cell over a batch of 16384 rows: the kernel against its reference, on the extended reals.

  For every row, with hidden row `h` and input row `x` (256 entries each),
      z = σ([h, x] · Wz + bz),   r = σ([h, x] · Wr + br),   s = tanh([r ⊙ h, x] · Ws + bs),
      h' = (1 − z) ⊙ h + z ⊙ s.
  The reference forms the row `[h, x]` of 512 entries by a concatenation and multiplies it by the whole weight
  matrix of 512 rows; the kernel multiplies `h` by the matrix's upper 256 rows and `x` by its lower 256 rows and adds
  the two products.  The two agree because a sum over the 512 positions of two rows laid end to end is the sum
  over the first row's positions plus the sum over the second's: commutativity and associativity of addition
  only, so nothing about the entries' finiteness is used.  Everything else is the same operation on both sides at
  the ideal values: the narrowing of the matrix operands is the identity, the logistic function is one over one
  plus the exponential of the negation in both spellings, and the hyperbolic tangent is the same function.

  The kernel runs on a grid of 8 points, 2048 rows each; its result array is assembled from the 8 blocks
  (Proof/GruBlocks.lean, over Proof/GruKernel.lean for the body and Proof/GruSpec.lean for the cell and the law);
  the reference's result is read stage by stage (Proof/GruRef.lean).
-/
import proofs.«136330_j83760452207457_1_alg».proof.Defs
import proofs.«136330_j83760452207457_1_alg».proof.Proof.Gen.Kernel
import proofs.«136330_j83760452207457_1_alg».proof.Proof.Gen.Kernel.Skeleton
import proofs.«136330_j83760452207457_1_alg».proof.Proof.Gen.Kernel.Launch
import proofs.«136330_j83760452207457_1_alg».proof.Proof.Gen.Kernel.Points
import proofs.«136330_j83760452207457_1_alg».proof.Proof.Gen.Kernel.Frame
import proofs.«136330_j83760452207457_1_alg».proof.Proof.Gen.KernelIdeal
import proofs.«136330_j83760452207457_1_alg».proof.Proof.Gen.KernelIdeal.Skeleton
import proofs.«136330_j83760452207457_1_alg».proof.Proof.Gen.KernelIdeal.Launch
import proofs.«136330_j83760452207457_1_alg».proof.Proof.Gen.KernelIdeal.Points
import proofs.«136330_j83760452207457_1_alg».proof.Proof.Gen.KernelIdeal.Frame
import proofs.«136330_j83760452207457_1_alg».proof.Proof.Gen.ReferenceIdeal
import proofs.«136330_j83760452207457_1_alg».proof.Proof.Gen.Pre_finite_inputs
import proofs.«136330_j83760452207457_1_alg».proof.Proof.Gen.KernelIdeal.Value
import proofs.«136330_j83760452207457_1_alg».proof.Proof.RefRead
import proofs.«136330_j83760452207457_1_alg».proof.Proof.GruBlocks
import proofs.«136330_j83760452207457_1_alg».proof.Proof.GruRef
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The idealization rewrote nothing. -/
theorem preserves : Cert.preserves_Kernel_KernelIdeal := trivial

/-- From memories agreeing on the arguments both programs end with the cell applied to every row. -/
theorem algebraic : Cert.algebraic_KernelIdeal_ReferenceIdeal := by
  intro m ρ m' ρ' _ hagree
  refine ⟨fun c => Cert.KernelIdeal.GruBlocks.G m c, Cert.KernelIdeal.GruBlocks.run m ρ, ?_⟩
  refine (θ_run Cert.ReferenceIdeal.defs _ _).mono (fun _ h c => ⟨(h c).1.trans ?_, (h c).2⟩)
    (Cert.ReferenceIdeal.PValue.run (F := Ideal) m' ρ')
  obtain ⟨a0, a1, a2, a3, a4, a5, a6, a7⟩ := hagree c
  rw [Cert.ReferenceIdeal.PRead.val_main_v32_eq, Cert.ReferenceIdeal.GruRef.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
